-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256x16 : Shape := ⟨2, ![256, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S100000x256 .f32) (main_arg1 : IVec S3200000 32) (main_arg2 : IVec S3200000 32) (main_arg3 : FVec F S256x16 .f32) (main_arg4 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg3
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S100000x256 : Shape := ⟨2, ![100000, 256]⟩
abbrev S3200000 : Shape := ⟨1, ![3200000]⟩
abbrev S256x16 : Shape := ⟨2, ![256, 16]⟩
abbrev S16 : Shape := ⟨1, ![16]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x256 : Shape := ⟨2, ![5000, 256]⟩
abbrev S5000x1 : Shape := ⟨2, ![5000, 1]⟩
abbrev S5000x16 : Shape := ⟨2, ![5000, 16]⟩
abbrev S3200000x16 : Shape := ⟨2, ![3200000, 16]⟩
abbrev S1x16 : Shape := ⟨2, ![1, 16]⟩
abbrev S10000x16 : Shape := ⟨2, ![10000, 16]⟩
abbrev S10000x1 : Shape := ⟨2, ![10000, 1]⟩

abbrev nBuf : Space → Nat
  | .hbm => 47
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x16, .f32⟩
  | .hbm, ⟨4, _⟩ => ⟨S16, .f32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x16, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x16, .f32⟩
  | .hbm, ⟨40, _⟩ => ⟨S_, .f32⟩
  | .hbm, ⟨41, _⟩ => ⟨S100000x16, .f32⟩
  | .hbm, ⟨42, _⟩ => ⟨S3200000x1, .i32⟩
  | .hbm, ⟨43, _⟩ => ⟨S100000x16, .f32⟩
  | .hbm, ⟨44, _⟩ => ⟨S100000x1, .f32⟩
  | .hbm, ⟨45, _⟩ => ⟨S1x16, .f32⟩
  | .hbm, ⟨46, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x16, .f32⟩
  | .local _ .vmem, ⟨5, _⟩ => ⟨S5000x16, .f32⟩
  | .local _ .vmem, ⟨6, _⟩ => ⟨S5000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S3200000x1_S3200000_n_0_0_1_wf : ScatterDims.WF S100000 S3200000x1 S3200000 [] [0] [0] 1
  dot_S5000x256_S256x16_S5000x16_1_0_0_1_n_n_wf : DotDims.WF S5000x256 S256x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S3200000 : Shape := ⟨1, ![3200000]⟩
abbrev S256x16 : Shape := ⟨2, ![256, 16]⟩
abbrev S16 : Shape := ⟨1, ![16]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 52
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x16, .f32⟩
  | .hbm, ⟨4, _⟩ => ⟨S16, .f32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x256, .f32⟩
  | .hbm, ⟨31, _⟩ => ⟨S100000x256, .f32⟩
  | .hbm, ⟨32, _⟩ => ⟨S100000x16, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x16, .f32⟩
  | .hbm, ⟨42, _⟩ => ⟨S_, .f32⟩
  | .hbm, ⟨43, _⟩ => ⟨S100000x16, .f32⟩
  | .hbm, ⟨44, _⟩ => ⟨S3200000x1, .i32⟩
  | .hbm, ⟨45, _⟩ => ⟨S100000x16, .f32⟩
  | .hbm, ⟨46, _⟩ => ⟨S100000x1, .f32⟩
  | .hbm, ⟨47, _⟩ => ⟨S100000x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3200000x1_S3200000_n_0_0_1_wf : ScatterDims.WF S100000 S3200000x1 S3200000 [] [0] [0] 1
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Entry.lean ====
import proofs.«119442_j66288525247279_1_alg».proof.Proof.Gen.KernelIdeal.Frame
import Idealize.ShloMosaic.Lib.StableHlo.Run
import Idealize.ShloMosaic.PureOps.Ideal

/-!
# What the two regions find in their arrays

Around the two regions the program runs host operations: two degree counts (a scatter-add of ones into zeros, by source
and by destination index), each clamped below at one and raised to the power −1/2; then, between the regions, the source
indices wrapped into range, the gather of the projected rows and their scatter-add by destination. Here each array a
region reads is written as those operations of the launched arguments. The program's memory is followed one stretch of
operations at a time, the memory before the stretch kept as an unknown, so that no earlier stretch is ever re-evaluated.
-/

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

/-- How often each of the 100000 nodes occurs among the 3200000 indices: ones scatter-added into zeros. -/
def counts (idx : (⟨S3200000, .i32⟩ : BufTy).Contents (Elt Ideal)) : FVec Ideal S100000 .f32 :=
  Host.scatterAdd (F := Ideal) scatter_S100000_S3200000x1_S3200000_n_0_0_1
    (broadcastInDim S100000 ![] bcast_S_S100000 (constant (F := Ideal) S_ .f32 0x00000000#32))
    (broadcastInDim S3200000x1 ![0] bcast_S3200000_S3200000x1_0 idx)
    (broadcastInDim S3200000 ![] bcast_S_S3200000 (constant (F := Ideal) S_ .f32 0x3F800000#32))

/-- A degree factor: the count clamped below at one, to the power −1/2. -/
def degFactor (idx : (⟨S3200000, .i32⟩ : BufTy).Contents (Elt Ideal)) : FVec Ideal S100000 .f32 :=
  Host.powf (F := Ideal)
    (maximumf (F := Ideal) (φ := .f32) (broadcastInDim S100000 ![] bcast_S_S100000 (id (constant (F := Ideal) S_ .f32 0x3F800000#32))) (counts idx))
    (broadcastInDim S100000 ![] bcast_S_S100000 (constant (F := Ideal) S_ .f32 0xBF000000#32))

/-- The aggregate of a projected array `h`: its rows gathered by source index (a negative index wrapped by 100000),
    then scatter-added by destination index into zeros. -/
def aggOf (h : FVec Ideal S100000x16 .f32) (x1 x2 : (⟨S3200000, .i32⟩ : BufTy).Contents (Elt Ideal)) : FVec Ideal S100000x16 .f32 :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 x2)
    (Host.gather gather_S100000x16_S3200000x1_S3200000x16_1_0_n_n_0_1_116 h
      (broadcastInDim S3200000x1 ![0] bcast_S3200000_S3200000x1_0
        (select (cmpi .slt x1 (broadcastInDim S3200000 ![] bcast_S_S3200000 (constantI S_ 32 0#32)))
          (addi x1 (broadcastInDim S3200000 ![] bcast_S_S3200000 (constantI S_ 32 100000#32))) x1)))

variable (m : (ℓ : Loc nD τ sig) → Buf (Elt Ideal) ℓ) (ρ : Dev nD → PrngReg)

/-! ## The arguments reach the first region as launched -/

theorem arg0_entry (c : Dev nD) : V5 m ρ c main_arg0 = (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  after_results
theorem arg1_entry (c : Dev nD) : V5 m ρ c main_arg1 = (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_arg1) = _
  after_results
theorem arg2_entry (c : Dev nD) : V5 m ρ c main_arg2 = (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_arg2) = _
  after_results
theorem arg3_entry (c : Dev nD) : V5 m ρ c main_arg3 = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results
theorem arg4_entry (c : Dev nD) : V5 m ρ c main_arg4 = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results

/-! ## The five stretches before the first region, one at a time -/

/-- First stretch: the two counts and the constant one. -/
theorem out_count (c : Dev nD) : W1 m ρ c (Proc.devRef .tc main_v3) = counts (m ((c : Thread nD τ).loc main_arg1)) := by
  show StableHlo.after hostOps0 (W0 m ρ c) (Proc.devRef .tc main_v3) = _
  unfold counts
  after_results
theorem in_count (c : Dev nD) : W1 m ρ c (Proc.devRef .tc main_v6) = counts (m ((c : Thread nD τ).loc main_arg2)) := by
  show StableHlo.after hostOps0 (W0 m ρ c) (Proc.devRef .tc main_v6) = _
  unfold counts
  after_results
theorem one_out (c : Dev nD) : W1 m ρ c (Proc.devRef .tc main_cst_2) = constant (F := Ideal) S_ .f32 0x3F800000#32 := by
  show StableHlo.after hostOps0 (W0 m ρ c) (Proc.devRef .tc main_cst_2) = _
  after_results

/-- Second stretch: the out-count clamped at one; the in-count is not touched. -/
theorem clamp_out (c : Dev nD) : W2 m ρ c (Proc.devRef .tc main_v7)
    = maximumf (F := Ideal) (φ := .f32) (broadcastInDim S100000 ![] bcast_S_S100000 (id (W1 m ρ c (Proc.devRef .tc main_cst_2)))) (W1 m ρ c (Proc.devRef .tc main_v3)) := by
  show StableHlo.after hostOps0_1 (W1 m ρ c) (Proc.devRef .tc main_v7) = _
  generalize W1 m ρ c = W
  after_results
  rfl
theorem in_count2 (c : Dev nD) : W2 m ρ c (Proc.devRef .tc main_v6) = W1 m ρ c (Proc.devRef .tc main_v6) := by
  show StableHlo.after hostOps0_1 (W1 m ρ c) (Proc.devRef .tc main_v6) = _
  generalize W1 m ρ c = W
  after_results

/-- Third stretch: the source-side factor; the in-count is not touched; the constant one again. -/
theorem fac_out (c : Dev nD) : W3 m ρ c (Proc.devRef .tc main_v9)
    = Host.powf (F := Ideal) (W2 m ρ c (Proc.devRef .tc main_v7)) (broadcastInDim S100000 ![] bcast_S_S100000 (constant (F := Ideal) S_ .f32 0xBF000000#32)) := by
  show StableHlo.after hostOps0_2 (W2 m ρ c) (Proc.devRef .tc main_v9) = _
  generalize W2 m ρ c = W
  after_results
theorem in_count3 (c : Dev nD) : W3 m ρ c (Proc.devRef .tc main_v6) = W2 m ρ c (Proc.devRef .tc main_v6) := by
  show StableHlo.after hostOps0_2 (W2 m ρ c) (Proc.devRef .tc main_v6) = _
  generalize W2 m ρ c = W
  after_results
theorem one_in (c : Dev nD) : W3 m ρ c (Proc.devRef .tc main_cst_4) = constant (F := Ideal) S_ .f32 0x3F800000#32 := by
  show StableHlo.after hostOps0_2 (W2 m ρ c) (Proc.devRef .tc main_cst_4) = _
  generalize W2 m ρ c = W
  after_results

/-- Fourth stretch: the in-count clamped at one; the source-side factor is not touched. -/
theorem clamp_in (c : Dev nD) : W4 m ρ c (Proc.devRef .tc main_v10)
    = maximumf (F := Ideal) (φ := .f32) (broadcastInDim S100000 ![] bcast_S_S100000 (id (W3 m ρ c (Proc.devRef .tc main_cst_4)))) (W3 m ρ c (Proc.devRef .tc main_v6)) := by
  show StableHlo.after hostOps0_3 (W3 m ρ c) (Proc.devRef .tc main_v10) = _
  generalize W3 m ρ c = W
  after_results
  rfl
theorem fac_out4 (c : Dev nD) : W4 m ρ c (Proc.devRef .tc main_v9) = W3 m ρ c (Proc.devRef .tc main_v9) := by
  show StableHlo.after hostOps0_3 (W3 m ρ c) (Proc.devRef .tc main_v9) = _
  generalize W3 m ρ c = W
  after_results

/-- Fifth stretch: the destination-side factor, and the source-side factor reshaped to one column. -/
theorem fac_in (c : Dev nD) : W5 m ρ c (Proc.devRef .tc main_v12)
    = Host.powf (F := Ideal) (W4 m ρ c (Proc.devRef .tc main_v10)) (broadcastInDim S100000 ![] bcast_S_S100000 (constant (F := Ideal) S_ .f32 0xBF000000#32)) := by
  show StableHlo.after hostOps0_4 (W4 m ρ c) (Proc.devRef .tc main_v12) = _
  generalize W4 m ρ c = W
  after_results
theorem col_out (c : Dev nD) (h : S100000.ShapeCasts S100000x1) :
    W5 m ρ c (Proc.devRef .tc main_v13) = shapeCast S100000x1 (W4 m ρ c (Proc.devRef .tc main_v9)) h := by
  show StableHlo.after hostOps0_4 (W4 m ρ c) (Proc.devRef .tc main_v13) = _
  generalize W4 m ρ c = W
  after_results
  rfl

/-! ## What the first region reads -/

/-- Its factor column is the source-side degree factor, reshaped to one column. -/
theorem fac_entry (c : Dev nD) (h : S100000.ShapeCasts S100000x1) :
    V5 m ρ c main_v13 = shapeCast S100000x1 (degFactor (m ((c : Thread nD τ).loc main_arg1))) h := by
  show W5 m ρ c (Proc.devRef .tc main_v13) = _
  rw [col_out m ρ c h, fac_out4, fac_out, clamp_out, one_out, out_count]
  rfl

/-- The destination-side degree factor, as the first region's entry memory holds it. -/
theorem fac_in_entry (c : Dev nD) : W5 m ρ c (Proc.devRef .tc main_v12) = degFactor (m ((c : Thread nD τ).loc main_arg2)) := by
  rw [fac_in, clamp_in, one_in, in_count3, in_count2, in_count]
  rfl

/-! ## Between the regions -/

/-- The first region writes only its result array: the index arrays, the bias and the destination-side factor pass it. -/
theorem mid_arg1 (c : Dev nD) : W6 m ρ c (Proc.devRef .tc main_arg1) = (m ((c : Thread nD τ).loc main_arg1)) :=
  (W6_of_ne m ρ c main_arg1 (by decide)).trans (arg1_entry m ρ c)
theorem mid_arg2 (c : Dev nD) : W6 m ρ c (Proc.devRef .tc main_arg2) = (m ((c : Thread nD τ).loc main_arg2)) :=
  (W6_of_ne m ρ c main_arg2 (by decide)).trans (arg2_entry m ρ c)
theorem mid_arg4 (c : Dev nD) : W6 m ρ c (Proc.devRef .tc main_arg4) = (m ((c : Thread nD τ).loc main_arg4)) :=
  (W6_of_ne m ρ c main_arg4 (by decide)).trans (arg4_entry m ρ c)
theorem mid_fac (c : Dev nD) : W6 m ρ c (Proc.devRef .tc main_v12) = degFactor (m ((c : Thread nD τ).loc main_arg2)) :=
  (W6_of_ne m ρ c main_v12 (by decide)).trans (fac_in_entry m ρ c)
/-- Its result array holds what its write-backs leave. -/
theorem mid_proj (c : Dev nD) : W6 m ρ c (Proc.devRef .tc main_v14) = (dat0 (V5 m ρ) c).arrAt 3 cfg0.N :=
  W6_arr m ρ c 3

/-- The stretch between the regions: the aggregate, the destination-side factor as one column, the bias as one row. -/
theorem agg_mid (c : Dev nD) : W7 m ρ c (Proc.devRef .tc main_v24)
    = aggOf (W6 m ρ c (Proc.devRef .tc main_v14)) (W6 m ρ c (Proc.devRef .tc main_arg1)) (W6 m ρ c (Proc.devRef .tc main_arg2)) := by
  show StableHlo.after hostOps1 (W6 m ρ c) (Proc.devRef .tc main_v24) = _
  generalize W6 m ρ c = W
  unfold aggOf
  after_results
theorem fac_mid (c : Dev nD) (h : S100000.ShapeCasts S100000x1) :
    W7 m ρ c (Proc.devRef .tc main_v25) = shapeCast S100000x1 (W6 m ρ c (Proc.devRef .tc main_v12)) h := by
  show StableHlo.after hostOps1 (W6 m ρ c) (Proc.devRef .tc main_v25) = _
  generalize W6 m ρ c = W
  after_results
  rfl
theorem bias_mid (c : Dev nD) (h : S16.ShapeCasts S1x16) :
    W7 m ρ c (Proc.devRef .tc main_v26) = shapeCast S1x16 (W6 m ρ c (Proc.devRef .tc main_arg4)) h := by
  show StableHlo.after hostOps1 (W6 m ρ c) (Proc.devRef .tc main_v26) = _
  generalize W6 m ρ c = W
  after_results
  rfl

/-! ## What the second region reads -/

theorem agg_entry (c : Dev nD) :
    V7 m ρ c main_v24 = aggOf ((dat0 (V5 m ρ) c).arrAt 3 cfg0.N) (m ((c : Thread nD τ).loc main_arg1)) (m ((c : Thread nD τ).loc main_arg2)) := by
  show W7 m ρ c (Proc.devRef .tc main_v24) = _
  rw [agg_mid, mid_proj, mid_arg1, mid_arg2]
theorem fac2_entry (c : Dev nD) (h : S100000.ShapeCasts S100000x1) :
    V7 m ρ c main_v25 = shapeCast S100000x1 (degFactor (m ((c : Thread nD τ).loc main_arg2))) h := by
  show W7 m ρ c (Proc.devRef .tc main_v25) = _
  rw [fac_mid m ρ c h, mid_fac]
theorem bias_entry (c : Dev nD) (h : S16.ShapeCasts S1x16) :
    V7 m ρ c main_v26 = shapeCast S1x16 (m ((c : Thread nD τ).loc main_arg4)) h := by
  show W7 m ρ c (Proc.devRef .tc main_v26) = _
  rw [bias_mid m ρ c h, mid_arg4]

end Cert.KernelIdeal.Entry

end
-- ==== Proof.Project.lean ====
import proofs.«119442_j66288525247279_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The first region's array

The first region walks the 100000 × 256 feature array in twenty blocks of 5000 rows. At each block it multiplies every
row by that row's one-column factor, narrows both operands' format (the identity on extended reals) and multiplies the
block into the whole 256 × 16 weight matrix, accumulating from zero. Its blocks tile the 100000 × 16 result, so after
the region entry `(r, q)` of that array is `∑ k, (x (r, k) · ns (r, 0)) · w (k, q)` of the three arrays as the region
finds them.
-/

set_option maxRecDepth 16384

noncomputable section

namespace Cert.KernelIdeal.Project

open Cert.KernelIdeal Cert.KernelIdeal.Gen Idealize.ShloMosaic Idealize.ShloMosaic.TcCoe Idealize.SL.Sem
open Idealize.ShloMosaic.Pipeline (Dat)
open Idealize.ShloMosaic.ValueIdx

/-- The row of an entry of the 100000 × 16 array, and its column. -/
abbrev row (i : S100000x16.Idx) : Fin 100000 := ⟨(i 0).val, (i 0).isLt⟩
abbrev col (i : S100000x16.Idx) : Fin 16 := ⟨(i 1).val, (i 1).isLt⟩

/-- Every row of `x` scaled by that row's factor, then multiplied into `w`. -/
def projected (x : S100000x256.Idx → EReal) (ns : S100000x1.Idx → EReal) (w : S256x16.Idx → EReal) : S100000x16.Idx → EReal :=
  fun i => ∑ k : Fin 256, (x (ix2 (row i) k) * ns (ix2 (row i) (0 : Fin 1))) * w (ix2 k (col i))

theorem hz : (![0, 0] : Fin 2 → Nat) = fun _ => 0 := funext fun a => by fin_cases a <;> rfl

/-! ## The body's stored value at an entry -/

/-- The product's operand indices, axis by axis: the left operand is read at (row of the output, shared position),
    the right at (shared position, column of the output). -/
theorem lhs_axis0 (i : S5000x16.Idx) (q : dot_S5000x256_S256x16_S5000x16_1_0_0_1_n_n.contr.Idx) :
    (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_axis1 (i : S5000x16.Idx) (q : dot_S5000x256_S256x16_S5000x16_1_0_0_1_n_n.contr.Idx) :
    (dot_S5000x256_S256x16_S5000x16_1_0_0_1_n_n.lhsIdx i q 1).val = (q ⟨0, by decide⟩).val :=
  dot_S5000x256_S256x16_S5000x16_1_0_0_1_n_n.lhsIdx_val_of_single rfl i q
theorem rhs_axis0 (i : S5000x16.Idx) (q : dot_S5000x256_S256x16_S5000x16_1_0_0_1_n_n.contr.Idx) :
    (dot_S5000x256_S256x16_S5000x16_1_0_0_1_n_n.rhsIdx i q 0).val = (q ⟨0, by decide⟩).val :=
  dot_S5000x256_S256x16_S5000x16_1_0_0_1_n_n.rhsIdx_val_of_single rfl i q
theorem rhs_axis1 (i : S5000x16.Idx) (q : dot_S5000x256_S256x16_S5000x16_1_0_0_1_n_n.contr.Idx) :
    (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-- The matrix product into a zero accumulator, entry `(p, q)`: the sum over the 256 shared positions of the
    operands' products. -/
theorem matmul_zero_apply (l : FVec Ideal S5000x256 .bf16) (r : FVec Ideal S256x16 .bf16) (p : Fin 5000) (q : Fin 16) :
    matmul dot_S5000x256_S256x16_S5000x16_1_0_0_1_n_n none l r (constant (F := Ideal) S5000x16 .f32 0x00000000#32) (ix2 p q)
      = ∑ k : Fin 256, l (ix2 p k) * r (ix2 k q) := by
  simp only [matmul]
  rw [Ideal.matmul_constant_zero_apply, ← Equiv.sum_comp (ValueIdx.contrEquiv1 dot_S5000x256_S256x16_S5000x16_1_0_0_1_n_n 256 rfl rfl).symm]
  refine Finset.sum_congr rfl fun k _ => ?_
  have hk := ValueIdx.contrEquiv1_symm_val dot_S5000x256_S256x16_S5000x16_1_0_0_1_n_n 256 rfl rfl k
  have el : dot_S5000x256_S256x16_S5000x16_1_0_0_1_n_n.lhsIdx (ix2 p q) ((ValueIdx.contrEquiv1 dot_S5000x256_S256x16_S5000x16_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x16_S5000x16_1_0_0_1_n_n.rhsIdx (ix2 p q) ((ValueIdx.contrEquiv1 dot_S5000x256_S256x16_S5000x16_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- A one-column block spread over 256 columns reads, at row `p`, the block's entry of that row. -/
theorem spread_col (x1 : FVec Ideal S5000x1 .f32) (h : S5000x1.Broadcasts S5000x256) (p : Fin 5000) (k : Fin 256) :
    broadcastTo S5000x256 x1 h (ix2 p k) = x1 (ix2 p (0 : Fin 1)) :=
  broadcastTo_apply x1 h (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- One entry of what the body stores: the block's rows, each scaled by its factor, against the weight's column. -/
theorem pay_apply (x0 : FVec Ideal S5000x256 .f32) (x1 : FVec Ideal S5000x1 .f32) (x2 : FVec Ideal S256x16 .f32)
    (p : Fin 5000) (q : Fin 16) :
    k0_pay1 (F := Ideal) x0 x1 x2 (ix2 p q) = ∑ k : Fin 256, (x0 (ix2 p k) * x1 (ix2 p (0 : Fin 1))) * x2 (ix2 k q) := by
  unfold k0_pay1
  show matmul dot_S5000x256_S256x16_S5000x16_1_0_0_1_n_n none (truncf .bf16 (mulf x0 (broadcastTo S5000x256 (shapeCast S5000x1 x1 _) _)) _) (truncf .bf16 x2 _)
      (constant (F := Ideal) S5000x16 .f32 0x00000000#32) (ix2 p q) = _
  rw [matmul_zero_apply]
  refine Finset.sum_congr rfl fun k _ => ?_
  show (x0 (ix2 p k) * (broadcastTo S5000x256 (shapeCast S5000x1 x1 _) _) (ix2 p k)) * x2 (ix2 k q) = _
  rw [shapeCast_self x1, spread_col]

/-! ## From the blocks to the array -/

section Array

variable (V : (c : Dev nD) → (b : Ref sig .tc) → Buf (Elt Ideal) ((c : Thread nD τ).loc b))

/-- The three arrays as the region finds them, and the three blocks of them the body loads at point `t`. -/
abbrev featArr (c : Dev nD) : FVec Ideal S100000x256 .f32 := V c main_arg0
abbrev facArr (c : Dev nD) : FVec Ideal S100000x1 .f32 := V c main_v13
abbrev wgtArr (c : Dev nD) : FVec Ideal S256x16 .f32 := V c main_arg3
abbrev featBlk (c : Dev nD) (t : Fin cfg0.N) : FVec Ideal S5000x256 .f32 := iblk0 V c 0 t
abbrev facBlk (c : Dev nD) (t : Fin cfg0.N) : FVec Ideal S5000x1 .f32 := iblk0 V c 1 t
abbrev wgtBlk (c : Dev nD) (t : Fin cfg0.N) : FVec Ideal S256x16 .f32 := iblk0 V c 2 t

/-- The printed index maps, decided over the twenty points: the features, the factor column and the result move
    together, block `t` at point `t`; the weight matrix stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `5000 t + p` of the array. -/
theorem row_lt (t : Fin cfg0.N) (p : Fin 5000) : t.val * 5000 + p.val < 100000 := by
  have h1 : t.val < cfg0.N := t.isLt
  have hN : cfg0.N = 20 := N_0
  have h2 := p.isLt
  omega

theorem featBlk_apply (c : Dev nD) (t : Fin cfg0.N) (p : Fin 5000) (k : Fin 256) :
    featBlk V c t (ix2 p k) = featArr V c (ix2 ⟨t.val * 5000 + p.val, row_lt t p⟩ k) := by
  obtain ⟨e0, e1, -⟩ := idx_facts t
  show featArr V c (((cfg0.win 0).blk t).view.emb (ix2 p k)) = _
  refine congrArg (featArr V c) (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

theorem facBlk_apply (c : Dev nD) (t : Fin cfg0.N) (p : Fin 5000) :
    facBlk V c t (ix2 p (0 : Fin 1)) = facArr V c (ix2 ⟨t.val * 5000 + p.val, row_lt t p⟩ (0 : Fin 1)) := by
  obtain ⟨-, -, e2, e3, -⟩ := idx_facts t
  show facArr V c (((cfg0.win 1).blk t).view.emb (ix2 p (0 : Fin 1))) = _
  refine congrArg (facArr V c) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem wgtBlk_apply (c : Dev nD) (t : Fin cfg0.N) (k : Fin 256) (q : Fin 16) :
    wgtBlk V c t (ix2 k q) = wgtArr V c (ix2 k q) := by
  obtain ⟨-, -, -, -, e4, e5, -⟩ := idx_facts t
  show wgtArr V c (((cfg0.win 2).blk t).view.emb (ix2 k q)) = _
  refine congrArg (wgtArr V c) (funext fun a => Fin.ext ?_)
  match a with
  | ⟨0, _⟩ => show win0_2.index t (0 : Fin 2) * 256 + 1 * k.val = k.val; omega
  | ⟨1, _⟩ => show win0_2.index t (1 : Fin 2) * 16 + 1 * q.val = q.val; omega

/-- Entry `(p, q)` of the result's block `t` is entry `(5000 t + p, q)` of the result array. -/
theorem out_emb (t : Fin cfg0.N) (p : Fin 5000) (q : Fin 16) :
    ((cfg0.win 3).blk t).view.emb (ix2 p q) = ix2 (⟨t.val * 5000 + p.val, row_lt t p⟩ : Fin 100000) q := by
  obtain ⟨-, -, -, -, -, -, e6, e7⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 16 + 1 * q.val = q.val; omega

/-- What point `t` writes back is block `t` of the projected array. -/
theorem flushed_eq (c : Dev nD) (t : Fin cfg0.N) :
    (dat0 V c).flushed 3 t
      = ((cfg0.win 3).blk t).view.read (Elt Ideal) (projected (featArr V c) (facArr V c) (wgtArr V c)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x16) hz]
  funext j
  obtain ⟨p, q, rfl⟩ : ∃ (p : Fin 5000) (q : Fin 16), j = ix2 p q := ⟨j 0, j 1, eq_ix2 j⟩
  refine (pay_apply (featBlk V c t) (facBlk V c t) (wgtBlk V c t) p q).trans ?_
  refine (Finset.sum_congr rfl fun k _ => by rw [featBlk_apply, facBlk_apply, wgtBlk_apply]).trans ?_
  show _ = projected (featArr V c) (facArr V c) (wgtArr V c) (((cfg0.win 3).blk t).view.emb (ix2 p q))
  rw [out_emb]
  rfl

/-- An index of the result array is in point `t`'s block iff each coordinate is in the block's range. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v14).slice (win0_3.rect t)).set ↔ _
  rw [View.set_slice_whole, Rect.mem_set_unit]
  exact Iff.rfl

/-- The twenty blocks tile the result array: row `r` lies in block `r / 5000`. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- After the first region its result array is the projected array. -/
theorem final (c : Dev nD) :
    (dat0 V c).arrAt 3 cfg0.N = projected (featArr V c) (facArr V c) (wgtArr V c) :=
  (dat0 V c).arrAt_eq_of_cover 3 (projected (featArr V c) (facArr V c) (wgtArr V c)) (fun t _ => flushed_eq V c t) cover

end Array

end Cert.KernelIdeal.Project

end
-- ==== Proof.ScaleBias.lean ====
import proofs.«119442_j66288525247279_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The second region's array

The second region walks the 100000 × 16 aggregate in ten blocks of 10000 rows. At each block it multiplies every row
by that row's one-column factor and adds the one-row bias. Its blocks tile the result array, so after the region the
array is, entry by entry, `agg (r, q) · nd (r, 0) + b (0, q)` of the three arrays as the region finds them.
-/

set_option maxRecDepth 16384

noncomputable section

namespace Cert.KernelIdeal.ScaleBias

open Cert.KernelIdeal Cert.KernelIdeal.Gen Idealize.ShloMosaic Idealize.ShloMosaic.TcCoe Idealize.SL.Sem
open Idealize.ShloMosaic.Pipeline (Dat)
open Idealize.ShloMosaic.ValueIdx

/-- The row of an entry of the 100000 × 16 array, and its column. -/
abbrev row (i : S100000x16.Idx) : Fin 100000 := ⟨(i 0).val, (i 0).isLt⟩
abbrev col (i : S100000x16.Idx) : Fin 16 := ⟨(i 1).val, (i 1).isLt⟩

/-- Every row of `agg` scaled by that row's factor, the bias row added. -/
def scaled (agg : S100000x16.Idx → EReal) (nd : S100000x1.Idx → EReal) (b : S1x16.Idx → EReal) : S100000x16.Idx → EReal :=
  fun i => agg i * nd (ix2 (row i) (0 : Fin 1)) + b (ix2 (0 : Fin 1) (col i))

theorem hz : (![0, 0] : Fin 2 → Nat) = fun _ => 0 := funext fun a => by fin_cases a <;> rfl

/-- A one-column block spread over sixteen columns reads, at row `p`, the block's entry of that row. -/
theorem spread_col (x1 : FVec Ideal S10000x1 .f32) (h : S10000x1.Broadcasts S10000x16) (p : Fin 10000) (q : Fin 16) :
    broadcastTo S10000x16 x1 h (ix2 p q) = x1 (ix2 p (0 : Fin 1)) :=
  broadcastTo_apply x1 h (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])

/-- A one-row block spread over ten thousand rows reads, at column `q`, the block's entry of that column. -/
theorem spread_row (x2 : FVec Ideal S1x16 .f32) (h : S1x16.Broadcasts S10000x16) (p : Fin 10000) (q : Fin 16) :
    broadcastTo S10000x16 x2 h (ix2 p q) = x2 (ix2 (0 : Fin 1) q) :=
  broadcastTo_apply x2 h (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])

/-- One entry of what the body stores: the aggregate's entry times the row's factor, plus the bias of that column. -/
theorem pay_apply (x0 : FVec Ideal S10000x16 .f32) (x1 : FVec Ideal S10000x1 .f32) (x2 : FVec Ideal S1x16 .f32)
    (p : Fin 10000) (q : Fin 16) :
    k1_pay1 (F := Ideal) x0 x1 x2 (ix2 p q) = x0 (ix2 p q) * x1 (ix2 p (0 : Fin 1)) + x2 (ix2 (0 : Fin 1) q) := by
  unfold k1_pay1
  show (shapeCast S10000x16 x0 _) (ix2 p q) * (broadcastTo S10000x16 (shapeCast S10000x1 x1 _) _) (ix2 p q)
      + (broadcastTo S10000x16 (shapeCast S1x16 x2 _) _) (ix2 p q) = _
  rw [shapeCast_self x0, shapeCast_self x1, shapeCast_self x2, spread_col, spread_row]

/-! ## From the blocks to the array -/

section Array

variable (V : (c : Dev nD) → (b : Ref sig .tc) → Buf (Elt Ideal) ((c : Thread nD τ).loc b))

/-- The three arrays as the region finds them, and the three blocks of them the body loads at point `t`. -/
abbrev aggArr (c : Dev nD) : FVec Ideal S100000x16 .f32 := V c main_v24
abbrev facArr (c : Dev nD) : FVec Ideal S100000x1 .f32 := V c main_v25
abbrev biasArr (c : Dev nD) : FVec Ideal S1x16 .f32 := V c main_v26
abbrev aggBlk (c : Dev nD) (t : Fin cfg1.N) : FVec Ideal S10000x16 .f32 := iblk1 V c 0 t
abbrev facBlk (c : Dev nD) (t : Fin cfg1.N) : FVec Ideal S10000x1 .f32 := iblk1 V c 1 t
abbrev biasBlk (c : Dev nD) (t : Fin cfg1.N) : FVec Ideal S1x16 .f32 := iblk1 V c 2 t

/-- The printed index maps, decided over the ten points: the aggregate, the factor column and the result move
    together, block `t` at point `t`; the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `10000 t + p` of the array. -/
theorem row_lt (t : Fin cfg1.N) (p : Fin 10000) : t.val * 10000 + p.val < 100000 := by
  have h1 : t.val < cfg1.N := t.isLt
  have hN : cfg1.N = 10 := N_1
  have h2 := p.isLt
  omega

theorem aggBlk_apply (c : Dev nD) (t : Fin cfg1.N) (p : Fin 10000) (q : Fin 16) :
    aggBlk V c t (ix2 p q) = aggArr V c (ix2 ⟨t.val * 10000 + p.val, row_lt t p⟩ q) := by
  obtain ⟨e0, e1, -⟩ := idx_facts t
  show aggArr V c (((cfg1.win 0).blk t).view.emb (ix2 p q)) = _
  refine congrArg (aggArr V c) (funext fun a => Fin.ext ?_)
  match a with
  | ⟨0, _⟩ => show win1_0.index t (0 : Fin 2) * 10000 + 1 * p.val = t.val * 10000 + p.val; omega
  | ⟨1, _⟩ => show win1_0.index t (1 : Fin 2) * 16 + 1 * q.val = q.val; omega

theorem facBlk_apply (c : Dev nD) (t : Fin cfg1.N) (p : Fin 10000) :
    facBlk V c t (ix2 p (0 : Fin 1)) = facArr V c (ix2 ⟨t.val * 10000 + p.val, row_lt t p⟩ (0 : Fin 1)) := by
  obtain ⟨-, -, e2, e3, -⟩ := idx_facts t
  show facArr V c (((cfg1.win 1).blk t).view.emb (ix2 p (0 : Fin 1))) = _
  refine congrArg (facArr V c) (funext fun a => Fin.ext ?_)
  match a with
  | ⟨0, _⟩ => show win1_1.index t (0 : Fin 2) * 10000 + 1 * p.val = t.val * 10000 + p.val; omega
  | ⟨1, _⟩ => show win1_1.index t (1 : Fin 2) * 1 + 1 * 0 = 0; omega

theorem biasBlk_apply (c : Dev nD) (t : Fin cfg1.N) (q : Fin 16) :
    biasBlk V c t (ix2 (0 : Fin 1) q) = biasArr V c (ix2 (0 : Fin 1) q) := by
  obtain ⟨-, -, -, -, e4, e5, -⟩ := idx_facts t
  show biasArr V c (((cfg1.win 2).blk t).view.emb (ix2 (0 : Fin 1) q)) = _
  refine congrArg (biasArr V c) (funext fun a => Fin.ext ?_)
  match a with
  | ⟨0, _⟩ => show win1_2.index t (0 : Fin 2) * 1 + 1 * 0 = 0; omega
  | ⟨1, _⟩ => show win1_2.index t (1 : Fin 2) * 16 + 1 * q.val = q.val; omega

/-- Entry `(p, q)` of the result's block `t` is entry `(10000 t + p, q)` of the result array. -/
theorem out_emb (t : Fin cfg1.N) (p : Fin 10000) (q : Fin 16) :
    ((cfg1.win 3).blk t).view.emb (ix2 p q) = ix2 (⟨t.val * 10000 + p.val, row_lt t p⟩ : Fin 100000) q := by
  obtain ⟨-, -, -, -, -, -, e6, e7⟩ := idx_facts t
  refine funext fun a => Fin.ext ?_
  match a with
  | ⟨0, _⟩ => show win1_3.index t (0 : Fin 2) * 10000 + 1 * p.val = t.val * 10000 + p.val; omega
  | ⟨1, _⟩ => show win1_3.index t (1 : Fin 2) * 16 + 1 * q.val = q.val; omega

/-- What point `t` writes back is block `t` of the scaled, shifted aggregate. -/
theorem flushed_eq (c : Dev nD) (t : Fin cfg1.N) :
    (dat1 V c).flushed 3 t
      = ((cfg1.win 3).blk t).view.read (Elt Ideal) (scaled (aggArr V c) (facArr V c) (biasArr V c)) := by
  show (cfg1.win 3).cut (grid1.coords t) ((dat1 V c).after 3 t) = _
  rw [after1_3]
  unfold out1_3
  rw [View.canon_unit_zero hz]
  simp only [View.ld_unit_zero (S := S10000x16) hz, View.ld_unit_zero (S := S10000x1) hz, View.ld_unit_zero (S := S1x16) hz]
  funext j
  obtain ⟨p, q, rfl⟩ : ∃ (p : Fin 10000) (q : Fin 16), j = ix2 p q := ⟨j 0, j 1, eq_ix2 j⟩
  refine (pay_apply (aggBlk V c t) (facBlk V c t) (biasBlk V c t) p q).trans ?_
  rw [aggBlk_apply, facBlk_apply, biasBlk_apply]
  show _ = scaled (aggArr V c) (facArr V c) (biasArr V c) (((cfg1.win 3).blk t).view.emb (ix2 p q))
  rw [out_emb]
  rfl

/-- An index of the result array is in point `t`'s block iff each coordinate is in the block's range. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v27).slice (win1_3.rect t)).set ↔ _
  rw [View.set_slice_whole, Rect.mem_set_unit]
  exact Iff.rfl

/-- The ten blocks tile the result array: row `r` lies in block `r / 10000`. -/
theorem cover (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  let t : Fin cfg1.N := ⟨(i 0).val / 10000, by rw [hN]; omega⟩
  obtain ⟨-, -, -, -, -, -, e6, e7⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- After the second region the result array is the scaled, shifted aggregate. -/
theorem final (c : Dev nD) :
    (dat1 V c).arrAt 3 cfg1.N = scaled (aggArr V c) (facArr V c) (biasArr V c) :=
  (dat1 V c).arrAt_eq_of_cover 3 (scaled (aggArr V c) (facArr V c) (biasArr V c)) (fun t _ => flushed_eq V c t) cover

end Array

end Cert.KernelIdeal.ScaleBias

end
-- ==== Proof.Bridge.lean ====
import proofs.«119442_j66288525247279_1_alg».proof.Proof.Entry
import proofs.«119442_j66288525247279_1_alg».proof.Proof.Project
import proofs.«119442_j66288525247279_1_alg».proof.Proof.ScaleBias
import proofs.«119442_j66288525247279_1_alg».proof.Proof.Gen.ReferenceIdeal.Read
import Idealize.ShloMosaic.Lib.Pipeline.Value
import Idealize.ShloMosaic.Lib.ValueIdx

/-!
# The kernel's result is the reference's

Entry by entry. The reference multiplies each feature row by its source-side factor (broadcast along the row), takes one
whole matrix product with the weights, gathers and scatter-adds, multiplies each row by its destination-side factor and
adds the bias. The kernel does the first and the last step block by block, with the factor as a one-column array and the
bias as a one-row array. A sum of products does not depend on how the rows are cut into blocks, a one-column reshape of a
vector read at row `r` is the vector at `r`, and the operations in between are the same operations: so the two results
agree as functions of the five arguments.
-/

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.KernelIdeal (Entry.degFactor Entry.counts Entry.aggOf)

/-! ## The shared host stages are the reference's -/

/-- The degree factor is the reference's source-side stage, and also its destination-side stage. -/
theorem deg_src (x : (⟨S3200000, .i32⟩ : BufTy).Contents (Elt Ideal)) :
    Entry.degFactor x = Cert.ReferenceIdeal.Read.val_main_v9 (F := Ideal) x := by
  unfold Entry.degFactor Entry.counts Cert.ReferenceIdeal.Read.val_main_v9 Cert.ReferenceIdeal.Read.val_main_v7 Cert.ReferenceIdeal.Read.val_main_v8 Cert.ReferenceIdeal.Read.val_main_call0_v1 Cert.ReferenceIdeal.Read.val_main_call0_v0 Cert.ReferenceIdeal.Read.val_main_cst_2 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_cst_3
  rfl
theorem deg_dst (x : (⟨S3200000, .i32⟩ : BufTy).Contents (Elt Ideal)) :
    Entry.degFactor x = Cert.ReferenceIdeal.Read.val_main_v12 (F := Ideal) x := by
  unfold Entry.degFactor Entry.counts Cert.ReferenceIdeal.Read.val_main_v12 Cert.ReferenceIdeal.Read.val_main_v10 Cert.ReferenceIdeal.Read.val_main_v11 Cert.ReferenceIdeal.Read.val_main_call1_v1 Cert.ReferenceIdeal.Read.val_main_call1_v0 Cert.ReferenceIdeal.Read.val_main_cst_4 Cert.ReferenceIdeal.Read.val_main_v6 Cert.ReferenceIdeal.Read.val_main_v4 Cert.ReferenceIdeal.Read.val_main_cst_1 Cert.ReferenceIdeal.Read.val_main_v5 Cert.ReferenceIdeal.Read.val_main_v0 Cert.ReferenceIdeal.Read.val_main_cst Cert.ReferenceIdeal.Read.val_main_cst_5
  rfl

/-- The reference's aggregate is the gather / scatter-add of its projected array. -/
theorem agg_ref (x0 : (⟨S100000x256, .f32⟩ : BufTy).Contents (Elt Ideal)) (x1 x2 : (⟨S3200000, .i32⟩ : BufTy).Contents (Elt Ideal))
    (x3 : (⟨S256x16, .f32⟩ : BufTy).Contents (Elt Ideal)) :
    Cert.ReferenceIdeal.Read.val_main_v26 (F := Ideal) x0 x1 x2 x3 = Entry.aggOf (Cert.ReferenceIdeal.Read.val_main_v16 (F := Ideal) x0 x1 x3) x1 x2 := by
  unfold Entry.aggOf Cert.ReferenceIdeal.Read.val_main_v26 Cert.ReferenceIdeal.Read.val_main_v23 Cert.ReferenceIdeal.Read.val_main_v24 Cert.ReferenceIdeal.Read.val_main_cst_7 Cert.ReferenceIdeal.Read.val_main_v25 Cert.ReferenceIdeal.Read.val_main_v22 Cert.ReferenceIdeal.Read.val_main_v21 Cert.ReferenceIdeal.Read.val_main_v18 Cert.ReferenceIdeal.Read.val_main_v17 Cert.ReferenceIdeal.Read.val_main_c Cert.ReferenceIdeal.Read.val_main_v20 Cert.ReferenceIdeal.Read.val_main_v19 Cert.ReferenceIdeal.Read.val_main_c_6
  rfl

/-! ## Reshapes and the reference's index functions, at an entry -/

/-- A vector reshaped to one column, at row `r`; a vector reshaped to one row, at column `q`. -/
theorem col_apply (v : FVec Ideal S100000 .f32) (h : S100000.ShapeCasts S100000x1) (r : Fin 100000) :
    shapeCast S100000x1 v h (ix2 r (0 : Fin 1)) = v (ix1 r) :=
  shapeCast_apply v h (ix2 r (0 : Fin 1)) (ix1 r) (by
    rw [Shape.rowMajor_val_one, Shape.rowMajor_val_two]; show r.val = r.val * 1 + 0; omega)
theorem row_apply (v : FVec Ideal S16 .f32) (h : S16.ShapeCasts S1x16) (q : Fin 16) :
    shapeCast S1x16 v h (ix2 (0 : Fin 1) q) = v (ix1 q) :=
  shapeCast_apply v h (ix2 (0 : Fin 1) q) (ix1 q) (by
    rw [Shape.rowMajor_val_one, Shape.rowMajor_val_two]; show q.val = 0 * 16 + q.val; omega)

theorem lidx_eq (r : Fin 100000) (q : Fin 16) (k : Fin 256) : Cert.ReferenceIdeal.Read.lidx_main_v16 (ix2 r q) k = ix2 r k :=
  funext fun a => Fin.ext (by match a with | ⟨0, _⟩ => rfl | ⟨1, _⟩ => rfl)
theorem ridx_eq (r : Fin 100000) (q : Fin 16) (k : Fin 256) : Cert.ReferenceIdeal.Read.ridx_main_v16 (ix2 r q) k = ix2 k q :=
  funext fun a => Fin.ext (by match a with | ⟨0, _⟩ => rfl | ⟨1, _⟩ => rfl)
theorem idx_src (r : Fin 100000) (k : Fin 256) : Cert.ReferenceIdeal.Read.idx_main_v13 (Cert.ReferenceIdeal.Read.idx_main_v14 (ix2 r k)) = ix1 r :=
  funext fun a => Fin.ext (by match a with | ⟨0, _⟩ => rfl)
theorem idx_dst (r : Fin 100000) (q : Fin 16) : Cert.ReferenceIdeal.Read.idx_main_v27 (Cert.ReferenceIdeal.Read.idx_main_v28 (ix2 r q)) = ix1 r :=
  funext fun a => Fin.ext (by match a with | ⟨0, _⟩ => rfl)
theorem idx_bias (r : Fin 100000) (q : Fin 16) : Cert.ReferenceIdeal.Read.idx_main_v30 (Cert.ReferenceIdeal.Read.idx_main_v31 (ix2 r q)) = ix1 q :=
  funext fun a => Fin.ext (by match a with | ⟨0, _⟩ => rfl)

/-! ## The two arrays -/

section Arrays

variable (m : (ℓ : Loc nD τ sig) → Buf (Elt Ideal) ℓ) (ρ : Dev nD → PrngReg)

/-- The five arguments as launched, at their literal types. -/
abbrev feat (c : Dev nD) : FVec Ideal S100000x256 .f32 := m ((c : Thread nD τ).loc main_arg0)
abbrev src (c : Dev nD) : (⟨S3200000, .i32⟩ : BufTy).Contents (Elt Ideal) := m ((c : Thread nD τ).loc main_arg1)
abbrev dst (c : Dev nD) : (⟨S3200000, .i32⟩ : BufTy).Contents (Elt Ideal) := m ((c : Thread nD τ).loc main_arg2)
abbrev wgt (c : Dev nD) : FVec Ideal S256x16 .f32 := m ((c : Thread nD τ).loc main_arg3)
abbrev bias (c : Dev nD) : FVec Ideal S16 .f32 := m ((c : Thread nD τ).loc main_arg4)

/-- What the first region leaves is the reference's projected array: at entry `(r, q)` both are the sum over `k` of
    `(x (r, k) · ns r) · w (k, q)`. -/
theorem proj_eq (c : Dev nD) :
    (dat0 (V5 m ρ) c).arrAt 3 cfg0.N = Cert.ReferenceIdeal.Read.val_main_v16 (F := Ideal) (feat m c) (src m c) (wgt m c) := by
  have hX : Project.featArr (V5 m ρ) c = feat m c := Entry.arg0_entry m ρ c
  have hN : Project.facArr (V5 m ρ) c = shapeCast S100000x1 (Entry.degFactor (src m c)) Facts₀.shapeCasts_S100000_S100000x1 :=
    Entry.fac_entry m ρ c _
  have hW : Project.wgtArr (V5 m ρ) c = wgt m c := Entry.arg3_entry m ρ c
  rw [Project.final, hX, hN, hW]
  funext i
  obtain ⟨r, q, rfl⟩ : ∃ (r : Fin 100000) (q : Fin 16), i = ix2 r q := ⟨i 0, i 1, eq_ix2 i⟩
  rw [Cert.ReferenceIdeal.Read.val_main_v16_apply]
  show ∑ k : Fin 256, (feat m c (ix2 r k) * shapeCast S100000x1 (Entry.degFactor (src m c)) _ (ix2 r (0 : Fin 1))) * wgt m c (ix2 k q) = _
  refine Finset.sum_congr rfl fun k _ => ?_
  rw [Cert.ReferenceIdeal.Read.val_main_v15_apply, Cert.ReferenceIdeal.Read.val_main_v14_apply, Cert.ReferenceIdeal.Read.val_main_v13_apply, lidx_eq, ridx_eq, idx_src, col_apply, deg_src]
  rfl

/-- What the second region leaves is the reference's result: at entry `(r, q)` both are `agg (r, q) · nd r + b q`. -/
theorem result_eq (c : Dev nD) :
    (dat1 (V7 m ρ) c).arrAt 3 cfg1.N
      = Cert.ReferenceIdeal.Read.val_main_v32 (F := Ideal) (feat m c) (src m c) (dst m c) (wgt m c) (bias m c) := by
  have hA : ScaleBias.aggArr (V7 m ρ) c = Entry.aggOf ((dat0 (V5 m ρ) c).arrAt 3 cfg0.N) (src m c) (dst m c) :=
    Entry.agg_entry m ρ c
  have hN : ScaleBias.facArr (V7 m ρ) c = shapeCast S100000x1 (Entry.degFactor (dst m c)) Facts₀.shapeCasts_S100000_S100000x1 :=
    Entry.fac2_entry m ρ c _
  have hB : ScaleBias.biasArr (V7 m ρ) c = shapeCast S1x16 (bias m c) Facts₀.shapeCasts_S16_S1x16 :=
    Entry.bias_entry m ρ c _
  rw [ScaleBias.final, hA, hN, hB, proj_eq, ← agg_ref]
  funext i
  obtain ⟨r, q, rfl⟩ : ∃ (r : Fin 100000) (q : Fin 16), i = ix2 r q := ⟨i 0, i 1, eq_ix2 i⟩
  rw [Cert.ReferenceIdeal.Read.val_main_v32_apply, Cert.ReferenceIdeal.Read.val_main_v29_apply, Cert.ReferenceIdeal.Read.val_main_v28_apply, Cert.ReferenceIdeal.Read.val_main_v27_apply,
    Cert.ReferenceIdeal.Read.val_main_v31_apply, Cert.ReferenceIdeal.Read.val_main_v30_apply, idx_dst, idx_bias]
  show Cert.ReferenceIdeal.Read.val_main_v26 (F := Ideal) (feat m c) (src m c) (dst m c) (wgt m c) (ix2 r q)
      * shapeCast S100000x1 (Entry.degFactor (dst m c)) _ (ix2 r (0 : Fin 1)) + shapeCast S1x16 (bias m c) _ (ix2 (0 : Fin 1) q) = _
  rw [col_apply, row_apply, deg_dst]
  rfl

end Arrays

end Cert.Bridge

end
-- ==== Proof.lean ====
/-
  A graph-convolution layer: `out = (A · ((X · ns) W)) · nd + b`, with `ns`, `nd` the out- and in-degree of each node
  clamped at one and raised to the power −1/2, and `A` the edge list applied as a gather by source followed by a
  scatter-add by destination.

  The kernel computes the projection `(X · ns) W` in twenty row blocks on the matrix unit (rows scaled, both operands
  narrowed in format, accumulated from zero) and the last scaling and shift in ten row blocks; the degree factors, the gather
  and the scatter-add are host operations, the same in both programs. Over the extended reals a change of float format is
  the identity and the matrix unit's product into a zero accumulator is the plain sum of products, so the two programs
  compute one function of the five arguments; no law used here needs the inputs finite.

  The three frames are the generated ones (the reference's is its generated run with the result dropped); the
  idealization rewrote nothing, so `preserves` holds trivially. For `algebraic`: the kernel's run, re-posted with its result
  array read at the end (Proof/ResultRun.lean), leaves what the second region's ten write-backs leave; that is the scaled,
  shifted aggregate (Proof/ScaleBias.lean) of what the first region's twenty write-backs leave, the projected array
  (Proof/Project.lean); the arrays each region finds are the host operations of the arguments (Proof/Entry.lean); and entry by
  entry this is the reference's result (Proof/Bridge.lean), which its generated run states.
-/
import proofs.«119442_j66288525247279_1_alg».proof.Defs
import proofs.«119442_j66288525247279_1_alg».proof.Proof.Gen.Kernel
import proofs.«119442_j66288525247279_1_alg».proof.Proof.Gen.Kernel.Skeleton
import proofs.«119442_j66288525247279_1_alg».proof.Proof.Gen.Kernel.Launch
import proofs.«119442_j66288525247279_1_alg».proof.Proof.Gen.Kernel.Points
import proofs.«119442_j66288525247279_1_alg».proof.Proof.Gen.Kernel.Frame
import proofs.«119442_j66288525247279_1_alg».proof.Proof.Gen.KernelIdeal
import proofs.«119442_j66288525247279_1_alg».proof.Proof.Gen.KernelIdeal.Skeleton
import proofs.«119442_j66288525247279_1_alg».proof.Proof.Gen.KernelIdeal.Launch
import proofs.«119442_j66288525247279_1_alg».proof.Proof.Gen.KernelIdeal.Points
import proofs.«119442_j66288525247279_1_alg».proof.Proof.Gen.KernelIdeal.Frame
import proofs.«119442_j66288525247279_1_alg».proof.Proof.Gen.ReferenceIdeal
import proofs.«119442_j66288525247279_1_alg».proof.Proof.Gen.ReferenceIdeal.Run
import proofs.«119442_j66288525247279_1_alg».proof.Proof.Gen.ReferenceIdeal.Read
import proofs.«119442_j66288525247279_1_alg».proof.Proof.Gen.Pre_finite_inputs
import proofs.«119442_j66288525247279_1_alg».proof.Proof.ResultRun
import proofs.«119442_j66288525247279_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.result_eq m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v32_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
